-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S_ : Shape := ⟨0, ![]⟩

class Facts : Prop where
  bcast_S_S2048x1x1024 : S_.BroadcastsInDim S2048x1x1024 (![] : Fin 0 → Fin S2048x1x1024.rank)
  reducesTo_S2048x1x1024_S_d0_1_2 : S2048x1x1024.ReducesTo [0, 1, 2] S_
  h_S_ : 0 < S_.numel
  bcast_S_S12x2048x1024x3 : S_.BroadcastsInDim S12x2048x1024x3 (![] : Fin 0 → Fin S12x2048x1024x3.rank)
  reducesTo_S12x2048x1024x3_S_d0_1_2_3 : S12x2048x1024x3.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x1x3 : S_.BroadcastsInDim S1024x1x3 (![] : Fin 0 → Fin S1024x1x3.rank)
  reducesTo_S1024x1x3_S_d0_1_2 : S1024x1x3.ReducesTo [0, 1, 2] S_

variable [Facts]

def fn_part1 {F : FTy → Type} [FloatOps F] (main_arg5 : FVec F S1024x1x3 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1x3 .f32 := Host.absf main_arg5
  let main_cst_6 : FVec F S_ .f32 := constant S_ .f32 0x7F800000#32
  let main_v20 : FVec F S1024x1x3 .f32 := broadcastInDim S1024x1x3 ![] bcast_S_S1024x1x3 main_cst_6
  let main_v21 : IVec S1024x1x3 1 := cmpf .olt main_v19 main_v20
  let main_c_7 : IVec S_ 1 := constantI S_ 1 1#1
  let main_v22 : IVec S_ 1 := (fun x v => Host.reduce IntOp.andi x v reducesTo_S1024x1x3_S_d0_1_2 h_S_) main_v21 main_c_7
  let main_v23 : IVec S_ 1 := andi main_v18 main_v22
  main_v23

def fn {F : FTy → Type} [FloatOps F] (main_arg0 : FVec F S2048x1x1024 .f32) (main_arg1 : FVec F S12x2048x1024x3 .f32) (main_arg2 : IVec S1 32) (main_arg3 : FVec F S3072x1024 .f32) (main_arg4 : FVec F S1024x1024 .f32) (main_arg5 : FVec F S1024x1x3 .f32) : IVec S_ 1 :=
  let main_v0 : FVec F S2048x1x1024 .f32 := Host.absf main_arg0
  let main_cst : FVec F S_ .f32 := constant S_ .f32 0x7F800000#32
  let main_v1 : FVec F S2048x1x1024 .f32 := broadcastInDim S2048x1x1024 ![] bcast_S_S2048x1x1024 main_cst
  let main_v2 : IVec S2048x1x1024 1 := cmpf .olt main_v0 main_v1
  let main_c : IVec S_ 1 := constantI S_ 1 1#1
  let main_v3 : IVec S_ 1 := (fun x v => Host.reduce IntOp.andi x v reducesTo_S2048x1x1024_S_d0_1_2 h_S_) main_v2 main_c
  let main_v4 : FVec F S12x2048x1024x3 .f32 := Host.absf main_arg1
  let main_cst_0 : FVec F S_ .f32 := constant S_ .f32 0x7F800000#32
  let main_v5 : FVec F S12x2048x1024x3 .f32 := broadcastInDim S12x2048x1024x3 ![] bcast_S_S12x2048x1024x3 main_cst_0
  let main_v6 : IVec S12x2048x1024x3 1 := cmpf .olt main_v4 main_v5
  let main_c_1 : IVec S_ 1 := constantI S_ 1 1#1
  let main_v7 : IVec S_ 1 := (fun x v => Host.reduce IntOp.andi x v reducesTo_S12x2048x1024x3_S_d0_1_2_3 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S1x2048x1024x3 : Shape := ⟨4, ![1, 2048, 1024, 3]⟩
abbrev S2048x1024x3 : Shape := ⟨3, ![2048, 1024, 3]⟩
abbrev S3x2048x1024 : Shape := ⟨3, ![3, 2048, 1024]⟩
abbrev S1024x3 : Shape := ⟨2, ![1024, 3]⟩
abbrev S3x1024 : Shape := ⟨2, ![3, 1024]⟩
abbrev S3x1x1024 : Shape := ⟨3, ![3, 1, 1024]⟩
abbrev S256x1x1024 : Shape := ⟨3, ![256, 1, 1024]⟩
abbrev S3x256x1024 : Shape := ⟨3, ![3, 256, 1024]⟩
abbrev S256x1024 : Shape := ⟨2, ![256, 1024]⟩
abbrev S1x256x1024 : Shape := ⟨3, ![1, 256, 1024]⟩
abbrev S1x1x1024 : Shape := ⟨3, ![1, 1, 1024]⟩
abbrev S1x1024 : Shape := ⟨2, ![1, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x1x1024, .f32⟩
  | .hbm, ⟨1, _⟩ => ⟨S12x2048x1024x3, .f32⟩
  | .hbm, ⟨2, _⟩ => ⟨S1, .i32⟩
  | .hbm, ⟨3, _⟩ => ⟨S3072x1024, .f32⟩
  | .hbm, ⟨4, _⟩ => ⟨S1024x1024, .f32⟩
  | .hbm, ⟨5, _⟩ => ⟨S1024x1x3, .f32⟩
  | .hbm, ⟨6, _⟩ => ⟨S1x2048x1024x3, .f32⟩
  | .hbm, ⟨7, _⟩ => ⟨S2048x1024x3, .f32⟩
  | .hbm, ⟨8, _⟩ => ⟨S3x2048x1024, .f32⟩
  | .hbm, ⟨9, _⟩ => ⟨S1024x3, .f32⟩
  | .hbm, ⟨10, _⟩ => ⟨S3x1024, .f32⟩
  | .hbm, ⟨11, _⟩ => ⟨S3x1x1024, .f32⟩
  | .hbm, ⟨12, _⟩ => ⟨S2048x1x1024, .f32⟩
  | .local _ .vmem, ⟨0, _⟩ => ⟨S256x1x1024, .f32⟩
  | .local _ .vmem, ⟨1, _⟩ => ⟨S256x1x1024, .f32⟩
  | .local _ .vmem, ⟨2, _⟩ => ⟨S1024x1024, .f32⟩
  | .local _ .vmem, ⟨3, _⟩ => ⟨S3x256x1024, .f32⟩
  | .local _ .vmem, ⟨4, _⟩ => ⟨S3x256x1024, .f32⟩
  | .local _ .vmem, ⟨5, _⟩ => ⟨S3x1x1024, .f32⟩
  | .local _ .vmem, ⟨6, _⟩ => ⟨S1024x1024, .f32⟩
  | .local _ .vmem, ⟨7, _⟩ => ⟨S256x1x1024, .f32⟩
  | .local _ .vmem, ⟨8, _⟩ => ⟨S256x1x1024, .f32⟩
  | _, _ => ⟨S2048x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S12x2048x1024x3_S1x2048x1024x3_0_0_0_0 : S12x2048x1024x3.Slices ![0, 0, 0, 0] S1x2048x1024x3
  shapeCasts_S1x2048x1024x3_S2048x1024x3 : S1x2048x1024x3.ShapeCasts S2048x1024x3
  transposes_S2048x1024x3_S3x2048x1024_2_0_1 : S2048x1024x3.Transposes [2, 0, 1] S3x2048x1024
  shapeCasts_S1024x1x3_S1024x3 : S1024x1x3.ShapeCasts S1024x3
  transposes_S1024x3_S3x1024_1_0 : S1024x3.Transposes [1, 0] S3x1024
  bcast_S3x1024_S3x1x1024_0_2 : S3x1024.BroadcastsInDim S3x1x1024 (![0, 2] : Fin 2 → Fin S3x1x1024.rank)
  inb_S256x1x1024_S256x1x1024_0_0_0 : ∀ a, (![0, 0, 0] : Fin 3 → Nat) a + S256x1x1024.size a ≤ S256x1x1024.size a
  h_S256x1x1024 : 0 < S256x1x1024.numel
  shapeCasts_S256x1x1024_S256x1024 : S256x1x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S3x256x1024_S1x256x1024_0_0_0 : ∀ a, (![0, 0, 0] : Fin 3 → Nat) a + S1x256x1024.size a ≤ S3x256x1024.size a
  h_S1x256x1024 : 0 < S1x256x1024.numel
  shapeCasts_S1x256x1024_S256x1024 : S1x256x1024.ShapeCasts S256x1024
  inb_S3x1x1024_S1x1x1024_0_0_0 : ∀ a, (![0, 0, 0] : Fin 3 → Nat) a + S1x1x1024.size a ≤ S3x1x1024.size a
  h_S1x1x1024 : 0 < S1x1x1024.numel
  shapeCasts_S1x1x1024_S1x1024 : S1x1x1024.ShapeCasts S1x1024
  broadcasts_S1x1024_S256x1024 : S1x1024.Broadcasts S256x1024
  inb_S3x256x1024_S1x256x1024_1_0_0 : ∀ a, (![1, 0, 0] : Fin 3 → Nat) a + S1x256x1024.size a ≤ S3x256x1024.size a
  inb_S3x1x1024_S1x1x1024_1_0_0 : ∀ a, (![1, 0, 0] : Fin 3 → Nat) a + S1x1x1024.size a ≤ S3x1x1024.size a
  inb_S3x256x1024_S1x256x1024_2_0_0 : ∀ a, (![2, 0, 0] : Fin 3 → Nat) a + S1x256x1024.size a ≤ S3x256x1024.size a
  inb_S3x1x1024_S1x1x1024_2_0_0 : ∀ a, (![2, 0, 0] : Fin 3 → Nat) a + S1x1x1024.size a ≤ S3x1x1024.size a
  shapeCasts_S256x1024_S256x1x1024 : S256x1024.ShapeCasts S256x1x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x1024.size a ≤ S2048x1x1024.size a
  hwx0_0 : ∀ i : grid0.Coords, EltTy.bits .f32 = 32 ∨ (Rect.block (s := S2048x1x1024) S256x1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x1024.size a ≤ S3x2048x1024.size a
  hwx0_2 : ∀ i : grid0.Coords, EltTy.bits .f32 = 32 ∨ (Rect.block (s := S3x2048x1024) S3x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x1024.size a ≤ S3x1x1024.size a
  hwx0_3 : ∀ i : grid0.Coords, EltTy.bits .f32 = 32 ∨ (Rect.block (s := S3x1x1024) S3x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1x1024.size a ≤ S2048x1x1024.size a
  hwx0_5 : ∀ i : grid0.Coords, EltTy.bits .f32 = 32 ∨ (Rect.block (s := S2048x1x1024) S256x1x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3x1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S2048x1x3072 : Shape := ⟨3, ![2048, 1, 3072]⟩
abbrev S2048x3072x1 : Shape := ⟨3, ![2048, 3072, 1]⟩
abbrev S2048x1024x1 : Shape := ⟨3, ![2048, 1024, 1]⟩
abbrev S1x2048x1024x3 : Shape := ⟨4, ![1, 2048, 1024, 3]⟩
abbrev S2048x1024x3 : Shape := ⟨3, ![2048, 1024, 3]⟩
abbrev S1024x3 : Shape := ⟨2, ![1024, 3]⟩
abbrev S1x1024x3 : Shape := ⟨3, ![1, 1024, 3]⟩
abbrev S_ : Shape := ⟨0, ![]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1x1024, .f32⟩
  | .hbm, ⟨1, _⟩ => ⟨S12x2048x1024x3, .f32⟩
  | .hbm, ⟨2, _⟩ => ⟨S1, .i32⟩
  | .hbm, ⟨3, _⟩ => ⟨S3072x1024, .f32⟩
  | .hbm, ⟨4, _⟩ => ⟨S1024x1024, .f32⟩
  | .hbm, ⟨5, _⟩ => ⟨S1024x1x3, .f32⟩
  | .hbm, ⟨6, _⟩ => ⟨S2048x1x3072, .f32⟩
  | .hbm, ⟨7, _⟩ => ⟨S2048x3072x1, .f32⟩
  | .hbm, ⟨8, _⟩ => ⟨S2048x1024x1, .f32⟩
  | .hbm, ⟨9, _⟩ => ⟨S2048x1024x1, .f32⟩
  | .hbm, ⟨10, _⟩ => ⟨S2048x1024x1, .f32⟩
  | .hbm, ⟨11, _⟩ => ⟨S2048x1024x1, .f32⟩
  | .hbm, ⟨12, _⟩ => ⟨S1x2048x1024x3, .f32⟩
  | .hbm, ⟨13, _⟩ => ⟨S2048x1024x3, .f32⟩
  | .hbm, ⟨14, _⟩ => ⟨S1024x3, .f32⟩
  | .hbm, ⟨15, _⟩ => ⟨S1x1024x3, .f32⟩
  | .hbm, ⟨16, _⟩ => ⟨S2048x1024x3, .f32⟩
  | .hbm, ⟨17, _⟩ => ⟨S2048x1024x3, .f32⟩
  | .hbm, ⟨18, _⟩ => ⟨S_, .f32⟩
  | .hbm, ⟨19, _⟩ => ⟨S2048x1024, .f32⟩
  | .hbm, ⟨20, _⟩ => ⟨S2048x1024x1, .f32⟩
  | .hbm, ⟨21, _⟩ => ⟨S2048x1024x1, .f32⟩
  | .hbm, ⟨22, _⟩ => ⟨S2048x1x1024, .f32⟩
  | .hbm, ⟨23, _⟩ => ⟨S2048x1x1024, .f32⟩
  | _, _ => ⟨S2048x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S2048x1x3072_S2048x3072x1_0_2_1 : S2048x1x3072.Transposes [0, 2, 1] S2048x3072x1
  slices_S2048x3072x1_S2048x1024x1_0_0_0 : S2048x3072x1.Slices ![0, 0, 0] S2048x1024x1
  slices_S2048x3072x1_S2048x1024x1_0_1024_0 : S2048x3072x1.Slices ![0, 1024, 0] S2048x1024x1
  slices_S2048x3072x1_S2048x1024x1_0_2048_0 : S2048x3072x1.Slices ![0, 2048, 0] S2048x1024x1
  slices_S12x2048x1024x3_S1x2048x1024x3_0_0_0_0 : S12x2048x1024x3.Slices ![0, 0, 0, 0] S1x2048x1024x3
  shapeCasts_S1x2048x1024x3_S2048x1024x3 : S1x2048x1024x3.ShapeCasts S2048x1024x3
  shapeCasts_S1024x1x3_S1024x3 : S1024x1x3.ShapeCasts S1024x3
  bcast_S1024x3_S1x1024x3_1_2 : S1024x3.BroadcastsInDim S1x1024x3 (![1, 2] : Fin 2 → Fin S1x1024x3.rank)
  bcast_S1x1024x3_S2048x1024x3_0_1_2 : S1x1024x3.BroadcastsInDim S2048x1024x3 (![0, 1, 2] : Fin 3 → Fin S2048x1024x3.rank)
  reducesTo_S2048x1024x3_S2048x1024_d2 : S2048x1024x3.ReducesTo [2] S2048x1024
  h_S_ : 0 < S_.numel
  bcast_S2048x1024_S2048x1024x1_0_1 : S2048x1024.BroadcastsInDim S2048x1024x1 (![0, 1] : Fin 2 → Fin S2048x1024x1.rank)
  transposes_S2048x1024x1_S2048x1x1024_0_2_1 : S2048x1024x1.Transposes [0, 2, 1] S2048x1x1024
  dot_S2048x1x1024_S3072x1024_S2048x1x3072_2_1_01_0_n_n_wf : DotDims.WF S2048x1x1024 S3072x1024 S2048x1x3072 [2] [1] [0, 1] [0] [] []
  dot_S2048x1x1024_S1024x1024_S2048x1x1024_2_1_01_0_n_n_wf : DotDims.WF S2048x1x1024 S1024x1024 S2048x1x1024 [2] [1] [0, 1] [0] [] []

variable [Facts₀]

def dot_S2048x1x1024_S3072x1024_S2048x1x3072_2_1_01_0_n_n : DotDims S2048x1x1024 S3072x1024 S2048x1x3072 where
  lhsContracting := [2]
  rhsContracting := [1]
  lhsNonContracting := [0, 1]
  rhsNonContracting := [0]
  lhsBatch := []
  rhsBatch := []
  wf := dot_S2048x1x1024_S3072x1024_S2048x1x3072_2_1_01_0_n_n_wf
def dot_S2048x1x1024_S1024x1024_S2048x1x1024_2_1_01_0_n_n : DotDims S2048x1x1024 S1024x1024 S2048x1x1024 where
  lhsContracting := [2]
  rhsContracting := [1]
  lhsNonContracting := [0, 1]
  rhsNonContracting := [0]
  lhsBatch := []
  rhsBatch := []
  wf := dot_S2048x1x1024_S1024x1024_S2048x1x1024_2_1_01_0_n_n_wf

class Facts : Prop extends Facts₀ where

variable [Facts]
-- ==== Proof.MixSpec.lean ====
/-
  The function both programs compute, on the extended reals.

  A decode step of a gated short convolution: for batch row `b` and output column `e`

      out[b, 0, e] = Σ_d ( gate[b, d] · taps[b, d] ) · wout[e, d]

  where `gate[b, d] = Σ_k x[b, 0, k] · win[1024 + d, k]` is the MIDDLE third of the input projection (rows
  1024 … 2047 of the [3072, 1024] weight) and `taps[b, d] = Σ_l cache[0, b, d, l] · cw[d, 0, l]` is the
  three-tap convolution of layer 0's cached state with the depthwise filter.

  Also here: what ONE block of 256 batch rows computes from the nine vectors the kernel body loads
  (`blockMix`), and that it is `mix` at the block's rows once each loaded vector is known to hold the
  matching part of the arrays (`blockMix_eq_mix`). The three taps are added in the order
  (tap 0 + tap 1) + tap 2, which is how a sum over `Fin 3` unfolds, so no law beyond that is used; nothing
  here needs the entries to be finite.
-/
import Idealize.ShloMosaic.PureOps.Ideal
import Idealize.ShloMosaic.Lib.ValueIdx

noncomputable section

namespace Cert.Mix

open Idealize.ShloMosaic Idealize.ShloMosaic.ValueIdx

/-- Row `1024 + d` of the input projection: the middle third. -/
abbrev midRow (d : Fin 1024) : Fin 3072 := ⟨1024 + d.val, by have := d.isLt; omega⟩
/-- The one coordinate of a unit axis. -/
abbrev u0 : Fin 1 := ⟨0, Nat.one_pos⟩
/-- Layer 0 of the twelve cached layers. -/
abbrev layer0 : Fin 12 := ⟨0, by decide⟩
abbrev tap0 : Fin 3 := ⟨0, by decide⟩
abbrev tap1 : Fin 3 := ⟨1, by decide⟩
abbrev tap2 : Fin 3 := ⟨2, by decide⟩

/-- The gate: the middle third of the input projection of row `b`. -/
def gate (x : (⟨3, ![2048, 1, 1024]⟩ : Shape).Idx → EReal) (win : (⟨2, ![3072, 1024]⟩ : Shape).Idx → EReal)
    (b : Fin 2048) (d : Fin 1024) : EReal :=
  ∑ k : Fin 1024, x (ix3 b u0 k) * win (ix2 (midRow d) k)

/-- The three-tap convolution of layer 0's cached state with the filter. -/
def taps (cache : (⟨4, ![12, 2048, 1024, 3]⟩ : Shape).Idx → EReal) (cw : (⟨3, ![1024, 1, 3]⟩ : Shape).Idx → EReal)
    (b : Fin 2048) (d : Fin 1024) : EReal :=
  ∑ l : Fin 3, cache (ix4 layer0 b d l) * cw (ix3 d u0 l)

/-- The result array as one function of the five arrays it depends on, index by index. -/
def mix (x : (⟨3, ![2048, 1, 1024]⟩ : Shape).Idx → EReal) (cache : (⟨4, ![12, 2048, 1024, 3]⟩ : Shape).Idx → EReal)
    (win : (⟨2, ![3072, 1024]⟩ : Shape).Idx → EReal) (wout : (⟨2, ![1024, 1024]⟩ : Shape).Idx → EReal)
    (cw : (⟨3, ![1024, 1, 3]⟩ : Shape).Idx → EReal) : (⟨3, ![2048, 1, 1024]⟩ : Shape).Idx → EReal :=
  fun i => ∑ d : Fin 1024, (gate x win (i 0) d * taps cache cw (i 0) d) * wout (ix2 (i 2) d)

/-- What a block of 256 rows computes at its row `p` and column `q` from the vectors the body loads: the rows
    `P0`, the projection's block `P1`, the three tap planes `P2`, `P4`, `P6` with their filter rows `P3`,
    `P5`, `P7`, and the output projection `P8`. -/
def blockMix (P0 : (⟨3, ![256, 1, 1024]⟩ : Shape).Idx → EReal) (P1 : (⟨2, ![1024, 1024]⟩ : Shape).Idx → EReal)
    (P2 : (⟨3, ![1, 256, 1024]⟩ : Shape).Idx → EReal) (P3 : (⟨3, ![1, 1, 1024]⟩ : Shape).Idx → EReal)
    (P4 : (⟨3, ![1, 256, 1024]⟩ : Shape).Idx → EReal) (P5 : (⟨3, ![1, 1, 1024]⟩ : Shape).Idx → EReal)
    (P6 : (⟨3, ![1, 256, 1024]⟩ : Shape).Idx → EReal) (P7 : (⟨3, ![1, 1, 1024]⟩ : Shape).Idx → EReal)
    (P8 : (⟨2, ![1024, 1024]⟩ : Shape).Idx → EReal) (p : Fin 256) (q : Fin 1024) : EReal :=
  ∑ d : Fin 1024, ((∑ k : Fin 1024, P0 (ix3 p u0 k) * P1 (ix2 d k))
      * ((P2 (ix3 u0 p d) * P3 (ix3 u0 u0 d) + P4 (ix3 u0 p d) * P5 (ix3 u0 u0 d)) + P6 (ix3 u0 p d) * P7 (ix3 u0 u0 d)))
    * P8 (ix2 q d)

/-- The block's value is `mix` at array row `b`, once the loaded vectors are the matching parts of the arrays:
    the rows are row `b` of `x`, the projection block is the middle third of `win`, tap plane `l` and filter row `l`
    are tap `l` of the cache and of the filter, and the output projection is `wout`. -/
theorem blockMix_eq_mix
    (P0 : (⟨3, ![256, 1, 1024]⟩ : Shape).Idx → EReal) (P1 : (⟨2, ![1024, 1024]⟩ : Shape).Idx → EReal)
    (P2 : (⟨3, ![1, 256, 1024]⟩ : Shape).Idx → EReal) (P3 : (⟨3, ![1, 1, 1024]⟩ : Shape).Idx → EReal)
    (P4 : (⟨3, ![1, 256, 1024]⟩ : Shape).Idx → EReal) (P5 : (⟨3, ![1, 1, 1024]⟩ : Shape).Idx → EReal)
    (P6 : (⟨3, ![1, 256, 1024]⟩ : Shape).Idx → EReal) (P7 : (⟨3, ![1, 1, 1024]⟩ : Shape).Idx → EReal)
    (P8 : (⟨2, ![1024, 1024]⟩ : Shape).Idx → EReal)
    (x : (⟨3, ![2048, 1, 1024]⟩ : Shape).Idx → EReal) (cache : (⟨4, ![12, 2048, 1024, 3]⟩ : Shape).Idx → EReal)
    (win : (⟨2, ![3072, 1024]⟩ : Shape).Idx → EReal) (wout : (⟨2, ![1024, 1024]⟩ : Shape).Idx → EReal)
    (cw : (⟨3, ![1024, 1, 3]⟩ : Shape).Idx → EReal)
    (b : Fin 2048) (p : Fin 256) (q : Fin 1024)
    (h0 : ∀ k : Fin 1024, P0 (ix3 p u0 k) = x (ix3 b u0 k))
    (h1 : ∀ (d k : Fin 1024), P1 (ix2 d k) = win (ix2 (midRow d) k))
    (h2 : ∀ d : Fin 1024, P2 (ix3 u0 p d) = cache (ix4 layer0 b d tap0))
    (h3 : ∀ d : Fin 1024, P3 (ix3 u0 u0 d) = cw (ix3 d u0 tap0))
    (h4 : ∀ d : Fin 1024, P4 (ix3 u0 p d) = cache (ix4 layer0 b d tap1))
    (h5 : ∀ d : Fin 1024, P5 (ix3 u0 u0 d) = cw (ix3 d u0 tap1))
    (h6 : ∀ d : Fin 1024, P6 (ix3 u0 p d) = cache (ix4 layer0 b d tap2))
    (h7 : ∀ d : Fin 1024, P7 (ix3 u0 u0 d) = cw (ix3 d u0 tap2))
    (h8 : ∀ d : Fin 1024, P8 (ix2 q d) = wout (ix2 q d)) :
    blockMix P0 P1 P2 P3 P4 P5 P6 P7 P8 p q = mix x cache win wout cw (ix3 b u0 q) := by
  unfold blockMix mix gate taps
  show _ = ∑ d : Fin 1024, ((∑ k : Fin 1024, x (ix3 b u0 k) * win (ix2 (midRow d) k))
      * ∑ l : Fin 3, cache (ix4 layer0 b d l) * cw (ix3 d u0 l)) * wout (ix2 q d)
  refine Finset.sum_congr rfl fun d _ => ?_
  rw [Fin.sum_univ_three, h2, h3, h4, h5, h6, h7, h8]
  have hg : (∑ k : Fin 1024, P0 (ix3 p u0 k) * P1 (ix2 d k)) = ∑ k : Fin 1024, x (ix3 b u0 k) * win (ix2 (midRow d) k) :=
    Finset.sum_congr rfl fun k _ => by rw [h0, h1]
  rw [hg]
  rfl

end Cert.Mix

end
-- ==== Proof.RefMix.lean ====
/-
  The reference's result is `mix` of its arguments.

  Read one operation at a time: the first contraction, transposed and cut to its middle third, is the gate
  (`gate_ref`: the slice starting at 1024 reads row `1024 + d` of the projection); the elementwise product
  of the cache's layer 0 with the filter, summed over the three taps from the initial value 0, is `taps`
  (`taps_ref`: the flattening of [1, 2048, 1024, 3] to [2048, 1024, 3] and of [1024, 1, 3] to [1024, 3] keep
  every coordinate, by arithmetic on the row-major position); their product, transposed back, is contracted with
  the output projection.
-/
import proofs.«145169_j68470368633593_1_alg».proof.Proof.Gen.ReferenceIdeal.Read
import proofs.«145169_j68470368633593_1_alg».proof.Proof.MixSpec
import Idealize.ShloMosaic.PureOps.Ideal.Laws

noncomputable section

namespace Cert.RefMix

open Cert.ReferenceIdeal Cert.ReferenceIdeal.Read Idealize.ShloMosaic Idealize.ShloMosaic.ValueIdx Cert.Mix

/-- The middle third of the input projection, as the reference cuts it out, is the gate. -/
theorem gate_ref (x0 : (⟨S2048x1x1024, .f32⟩ : BufTy).Contents (Elt Ideal)) (x3 : (⟨S3072x1024, .f32⟩ : BufTy).Contents (Elt Ideal))
    (j : S2048x1024x1.Idx) : val_main_v3 (F := Ideal) x0 x3 j = gate x0 x3 (j 0) (j 1) := by
  have h2 : (j 2).val < 1 := (j 2).isLt
  rw [val_main_v3_apply, val_main_v1_apply, val_main_v0_apply]
  unfold gate
  refine Finset.sum_congr rfl fun k _ => ?_
  have el : lidx_main_v0 (idx_main_v1 (idx_main_v3 j)) k = ix3 (j 0) u0 k := funext fun a => Fin.ext (by
    match a with
    | ⟨0, _⟩ => rfl
    | ⟨1, _⟩ => show (j 2).val = 0; omega
    | ⟨2, _⟩ => rfl)
  have er : ridx_main_v0 (idx_main_v1 (idx_main_v3 j)) k = ix2 (midRow (j 1)) k := funext fun a => Fin.ext (by
    match a with
    | ⟨0, _⟩ => rfl
    | ⟨1, _⟩ => rfl)
  rw [el, er]
  rfl

/-- The sum over the taps of layer 0's cached state times the filter, as the reference computes it, is `taps`. -/
theorem taps_ref (x1 : (⟨S12x2048x1024x3, .f32⟩ : BufTy).Contents (Elt Ideal)) (x5 : (⟨S1024x1x3, .f32⟩ : BufTy).Contents (Elt Ideal))
    (j : S2048x1024x1.Idx) : val_main_v13 (F := Ideal) x1 x5 j = taps x1 x5 (j 0) (j 1) := by
  have h0 : (j 0).val < 2048 := (j 0).isLt
  have h1 : (j 1).val < 1024 := (j 1).isLt
  rw [val_main_v13_apply, val_main_v12_apply, val_main_cst_apply]
  unfold taps
  show Ideal.ofBits .f32 0x00000000#32 + _ = _
  rw [Ideal.ofBits_zero_f32, zero_add]
  refine Finset.sum_congr rfl fun l _ => ?_
  have hl : l.val < 3 := l.isLt
  rw [val_main_v11_apply, val_main_v7_apply, val_main_v6_apply, val_main_v10_apply, val_main_v9_apply, val_main_v8_apply]
  have e1 : idx_main_v6 (idx_main_v7 (idx_main_v12 (idx_main_v13 j) l)) = ix4 layer0 (j 0) (j 1) l := funext fun a => Fin.ext (by
    match a with
    | ⟨0, _⟩ => rfl
    | ⟨1, _⟩ => show (((j 0).val * 1024 + (j 1).val) * 3 + l.val) / 3072 % 2048 = (j 0).val; omega
    | ⟨2, _⟩ => show (((j 0).val * 1024 + (j 1).val) * 3 + l.val) / 3 % 1024 = (j 1).val; omega
    | ⟨3, _⟩ => show (((j 0).val * 1024 + (j 1).val) * 3 + l.val) % 3 = l.val; omega)
  have e5 : idx_main_v8 (idx_main_v9 (idx_main_v10 (idx_main_v12 (idx_main_v13 j) l))) = ix3 (j 1) u0 l := funext fun a => Fin.ext (by
    match a with
    | ⟨0, _⟩ => show ((j 1).val * 3 + l.val) / 3 = (j 1).val; omega
    | ⟨1, _⟩ => rfl
    | ⟨2, _⟩ => show ((j 1).val * 3 + l.val) % 3 = l.val; omega)
  rw [e1, e5]
  rfl

/-- The reference's result array is `mix` of the five arrays it reads. -/
theorem ref_eq_mix (x0 : (⟨S2048x1x1024, .f32⟩ : BufTy).Contents (Elt Ideal)) (x1 : (⟨S12x2048x1024x3, .f32⟩ : BufTy).Contents (Elt Ideal))
    (x3 : (⟨S3072x1024, .f32⟩ : BufTy).Contents (Elt Ideal)) (x4 : (⟨S1024x1024, .f32⟩ : BufTy).Contents (Elt Ideal))
    (x5 : (⟨S1024x1x3, .f32⟩ : BufTy).Contents (Elt Ideal)) :
    val_main_v16 (F := Ideal) x0 x1 x3 x4 x5 = mix x0 x1 x3 x4 x5 := by
  funext i
  rw [val_main_v16_apply]
  unfold mix
  refine Finset.sum_congr rfl fun d _ => ?_
  rw [val_main_v15_apply, val_main_v14_apply, gate_ref, taps_ref]
  have er : ridx_main_v16 i d = ix2 (i 2) d := funext fun a => Fin.ext (by
    match a with
    | ⟨0, _⟩ => rfl
    | ⟨1, _⟩ => rfl)
  rw [er]
  rfl

end Cert.RefMix

end
-- ==== Proof.BodyMix.lean ====
/-
  What the kernel body computes for one block of 256 rows, read at one entry.

  The body's value is a product of a [256, 1024] matrix with the TRANSPOSE of a [1024, 1024] one (both operands
  are contracted along their second axis), into a zero accumulator: at (p, q) it is the plain sum
  Σ_d A[p, d] · B[q, d] (`matmul_rows`). It is applied twice: once to the block's rows and the projection block
  (`gateTerm`), and once to the gated taps and the output projection. Between the two, each of the three tap planes,
  a [1, 256, 1024] slab read as [256, 1024], is multiplied by its filter row, a [1, 1, 1024] slab read as a row and
  repeated down the 256 rows (`tapTerm`), and the three products are added. Narrowing to the 16-bit format
  changes nothing on the extended reals. Together: `blockMix`.
-/
import proofs.«145169_j68470368633593_1_alg».proof.Proof.Gen.KernelIdeal.Skeleton
import proofs.«145169_j68470368633593_1_alg».proof.Proof.MixSpec
import Idealize.ShloMosaic.PureOps.Ideal.Laws
import Idealize.ShloMosaic.Lib.ValueIdx
import Idealize.ShloMosaic.Lib.Pipeline.Value

noncomputable section

namespace Cert.BodyMix

open Cert.KernelIdeal Cert.KernelIdeal.Gen Idealize.ShloMosaic Idealize.ShloMosaic.ValueIdx Cert.Mix

/-! ## The product with a transpose, read at one entry -/

theorem lhs_ax0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_ax1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_ax0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_ax1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Into a zero accumulator, the product of `A` with the transpose of `B` at (p, q) is Σ_d A[p, d] · B[q, d]. -/
theorem matmul_rows (A : FVec Ideal S256x1024 .bf16) (B : FVec Ideal S1024x1024 .bf16) (p : Fin 256) (q : Fin 1024) :
    matmul (F := Ideal) dot_S256x1024_S1024x1024_S256x1024_1_1_0_0_n_n none A B (constant (F := Ideal) S256x1024 .f32 0x00000000#32) (ix2 p q)
      = ∑ d : Fin 1024, A (ix2 p d) * B (ix2 q d) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p q) ((ValueIdx.contrEquiv1 dot_S256x1024_S1024x1024_S256x1024_1_1_0_0_n_n 1024 rfl rfl).symm k) = ix2 p k := funext fun a => Fin.ext (by
    match a with
    | ⟨0, _⟩ => exact lhs_ax0 _ _
    | ⟨1, _⟩ => exact (lhs_ax1 _ _).trans hk)
  have er : dot_S256x1024_S1024x1024_S256x1024_1_1_0_0_n_n.rhsIdx (ix2 p q) ((ValueIdx.contrEquiv1 dot_S256x1024_S1024x1024_S256x1024_1_1_0_0_n_n 1024 rfl rfl).symm k) = ix2 q k := funext fun a => Fin.ext (by
    match a with
    | ⟨0, _⟩ => exact rhs_ax0 _ _
    | ⟨1, _⟩ => exact (rhs_ax1 _ _).trans hk)
  rw [el, er]

/-! ## The re-laid loads, read at one entry -/

/-- The block's rows [256, 1, 1024] read as [256, 1024]. -/
theorem rows_flat (P0 : Vec Ideal S256x1x1024 .f32) (p : Fin 256) (k : Fin 1024) :
    shapeCast S256x1024 P0 shapeCasts_S256x1x1024_S256x1024 (ix2 p k) = P0 (ix3 p u0 k) := by
  have hp : p.val < 256 := p.isLt
  have hk : k.val < 1024 := k.isLt
  exact shapeCast_apply P0 shapeCasts_S256x1x1024_S256x1024 (ix2 p k) (ix3 p u0 k)
    (by rw [Shape.rowMajor_val_three, Shape.rowMajor_val_two]; show (p.val * 1 + 0) * 1024 + k.val = p.val * 1024 + k.val; omega)

/-- A tap plane [1, 256, 1024] read as [256, 1024]. -/
theorem plane_flat (Pc : Vec Ideal S1x256x1024 .f32) (p : Fin 256) (d : Fin 1024) :
    shapeCast S256x1024 Pc shapeCasts_S1x256x1024_S256x1024 (ix2 p d) = Pc (ix3 u0 p d) := by
  have hp : p.val < 256 := p.isLt
  have hd : d.val < 1024 := d.isLt
  exact shapeCast_apply Pc shapeCasts_S1x256x1024_S256x1024 (ix2 p d) (ix3 u0 p d)
    (by rw [Shape.rowMajor_val_three, Shape.rowMajor_val_two]; show (0 * 256 + p.val) * 1024 + d.val = p.val * 1024 + d.val; omega)

/-- A filter row [1, 1, 1024] read as a [1, 1024] row and repeated down 256 rows. -/
theorem filter_rows (Pw : Vec Ideal S1x1x1024 .f32) (p : Fin 256) (d : Fin 1024) :
    broadcastTo S256x1024 (shapeCast S1x1024 Pw shapeCasts_S1x1x1024_S1x1024) broadcasts_S1x1024_S256x1024 (ix2 p d) = Pw (ix3 u0 u0 d) := by
  have hd : d.val < 1024 := d.isLt
  refine (broadcastTo_apply _ broadcasts_S1x1024_S256x1024 (ix2 p d) (ix2 u0 d) (fun a => match a with
    | ⟨0, _⟩ => by show 0 = if (1 : Nat) = 1 then 0 else p.val; rw [if_pos rfl]
    | ⟨1, _⟩ => by show d.val = if (1024 : Nat) = 1 then 0 else d.val; rw [if_neg (by decide)])).trans ?_
  exact shapeCast_apply Pw shapeCasts_S1x1x1024_S1x1024 (ix2 u0 d) (ix3 u0 u0 d)
    (by rw [Shape.rowMajor_val_three, Shape.rowMajor_val_two]; show (0 * 1 + 0) * 1024 + d.val = 0 * 1024 + d.val; omega)

/-! ## The body's two stages -/

/-- One tap: the plane times its filter row. -/
def tapTerm (Pc : Vec Ideal S1x256x1024 .f32) (Pw : Vec Ideal S1x1x1024 .f32) : FVec Ideal S256x1024 .f32 :=
  mulf (shapeCast S256x1024 Pc shapeCasts_S1x256x1024_S256x1024)
    (broadcastTo S256x1024 (shapeCast S1x1024 Pw shapeCasts_S1x1x1024_S1x1024) broadcasts_S1x1024_S256x1024)

theorem tapTerm_apply (Pc : Vec Ideal S1x256x1024 .f32) (Pw : Vec Ideal S1x1x1024 .f32) (p : Fin 256) (d : Fin 1024) :
    tapTerm Pc Pw (ix2 p d) = Pc (ix3 u0 p d) * Pw (ix3 u0 u0 d) := by
  unfold tapTerm
  rw [mulf_apply, plane_flat, filter_rows]

/-- The gate: the block's rows against the projection block. -/
def gateTerm (P0 : Vec Ideal S256x1x1024 .f32) (P1 : Vec Ideal S1024x1024 .f32) : FVec Ideal S256x1024 .f32 :=
  matmul dot_S256x1024_S1024x1024_S256x1024_1_1_0_0_n_n none (truncf .bf16 (shapeCast S256x1024 P0 shapeCasts_S256x1x1024_S256x1024) bitsLt_bf16_f32)
    (truncf .bf16 P1 bitsLt_bf16_f32) (constant S256x1024 .f32 0x00000000#32)

theorem gateTerm_apply (P0 : Vec Ideal S256x1x1024 .f32) (P1 : Vec Ideal S1024x1024 .f32) (p : Fin 256) (d : Fin 1024) :
    gateTerm P0 P1 (ix2 p d) = ∑ k : Fin 1024, P0 (ix3 p u0 k) * P1 (ix2 d k) := by
  unfold gateTerm
  rw [matmul_rows]
  refine Finset.sum_congr rfl fun k _ => ?_
  rw [truncf_apply, truncf_apply, rows_flat]

/-- The body's value as the two stages. -/
theorem pay_form (P0 : Vec Ideal S256x1x1024 .f32) (P1 : Vec Ideal S1024x1024 .f32) (P2 : Vec Ideal S1x256x1024 .f32) (P3 : Vec Ideal S1x1x1024 .f32) (P4 : Vec Ideal S1x256x1024 .f32) (P5 : Vec Ideal S1x1x1024 .f32) (P6 : Vec Ideal S1x256x1024 .f32) (P7 : Vec Ideal S1x1x1024 .f32) (P8 : Vec Ideal S1024x1024 .f32) :
    k0_pay2 (F := Ideal) P0 P1 P2 P3 P4 P5 P6 P7 P8
      = matmul dot_S256x1024_S1024x1024_S256x1024_1_1_0_0_n_n none
          (truncf .bf16 (mulf (gateTerm P0 P1) (addf (addf (tapTerm P2 P3) (tapTerm P4 P5)) (tapTerm P6 P7))) bitsLt_bf16_f32)
          (truncf .bf16 P8 bitsLt_bf16_f32) (constant S256x1024 .f32 0x00000000#32) := rfl

/-- The body's value at row `p` and column `q` of the block is `blockMix` of its loads. -/
theorem body_eq_blockMix (P0 : Vec Ideal S256x1x1024 .f32) (P1 : Vec Ideal S1024x1024 .f32) (P2 : Vec Ideal S1x256x1024 .f32) (P3 : Vec Ideal S1x1x1024 .f32) (P4 : Vec Ideal S1x256x1024 .f32) (P5 : Vec Ideal S1x1x1024 .f32) (P6 : Vec Ideal S1x256x1024 .f32) (P7 : Vec Ideal S1x1x1024 .f32) (P8 : Vec Ideal S1024x1024 .f32) (p : Fin 256) (q : Fin 1024) :
    k0_pay2 (F := Ideal) P0 P1 P2 P3 P4 P5 P6 P7 P8 (ix2 p q) = blockMix P0 P1 P2 P3 P4 P5 P6 P7 P8 p q := by
  rw [pay_form, matmul_rows]
  unfold blockMix
  refine Finset.sum_congr rfl fun d _ => ?_
  rw [truncf_apply, truncf_apply, mulf_apply, addf_apply, addf_apply, gateTerm_apply, tapTerm_apply, tapTerm_apply, tapTerm_apply]

end Cert.BodyMix

end
-- ==== Proof.HostLayout.lean ====
/-
  The two arrays the kernel's launch reads that are not arguments, at one entry.

  Before the launch the program re-lays two arguments and does no arithmetic. The tap planes [3, 2048, 1024] are
  layer 0 of the cache [12, 2048, 1024, 3] with the tap axis moved to the front: plane `l` at (b, d) is
  cache[0, b, d, l] (`planes_apply`). The filter rows [3, 1, 1024] are the filter [1024, 1, 3] transposed with a
  unit axis put back: row `l` at (0, d) is filter[d, 0, l] (`filters_apply`).
-/
import proofs.«145169_j68470368633593_1_alg».proof.Proof.Gen.KernelIdeal.Frame
import proofs.«145169_j68470368633593_1_alg».proof.Proof.MixSpec
import Idealize.ShloMosaic.Lib.StableHlo.Run
import Idealize.ShloMosaic.Lib.ValueIdx
import Idealize.ShloMosaic.Lib.Pipeline.Value

noncomputable section

namespace Cert.HostLayout

open Cert.KernelIdeal Cert.KernelIdeal.Gen Idealize.ShloMosaic Idealize.ShloMosaic.TcCoe Idealize.SL.Sem
open Idealize.ShloMosaic.ValueIdx Cert.Mix

variable (m : (ℓ : Loc nD τ sig) → Buf (Elt Ideal) ℓ)

/-- The tap planes as the launch finds them: the slice of layer 0, flattened, its tap axis moved to the front. -/
theorem planes_term (c : Dev nD) : (V m c main_v2 : S3x2048x1024.Idx → EReal)
    = transpose S3x2048x1024 [2, 0, 1]
        (shapeCast S2048x1024x3
          (extractStridedSlice S1x2048x1024x3 ![0, 0, 0, 0] (m ((c : Thread nD τ).loc main_arg1)) slices_S12x2048x1024x3_S1x2048x1024x3_0_0_0_0)
          shapeCasts_S1x2048x1024x3_S2048x1024x3)
        transposes_S2048x1024x3_S3x2048x1024_2_0_1 := by
  dsimp only [Gen.V, Gen.hostOps0]; after_results; rfl

/-- Plane `l` at (b, d) is the cache's layer 0 at (b, d, l). -/
theorem planes_apply (c : Dev nD) (l : Fin 3) (b : Fin 2048) (d : Fin 1024) :
    (V m c main_v2 : S3x2048x1024.Idx → EReal) (ix3 l b d) = m ((c : Thread nD τ).loc main_arg1) (ix4 layer0 b d l) := by
  have hl : l.val < 3 := l.isLt
  have hb : b.val < 2048 := b.isLt
  have hd : d.val < 1024 := d.isLt
  rw [planes_term]
  refine (transpose_apply [2, 0, 1] _ transposes_S2048x1024x3_S3x2048x1024_2_0_1 (ix3 l b d) (ix3 b d l) (fun a => match a with
    | ⟨0, _⟩ => rfl
    | ⟨1, _⟩ => rfl
    | ⟨2, _⟩ => rfl)).trans ?_
  refine (shapeCast_apply _ shapeCasts_S1x2048x1024x3_S2048x1024x3 (ix3 b d l) (ix4 u0 b d l)
    (by rw [Shape.rowMajor_val_four, Shape.rowMajor_val_three]; show ((0 * 2048 + b.val) * 1024 + d.val) * 3 + l.val = (b.val * 1024 + d.val) * 3 + l.val; omega)).trans ?_
  exact extractStridedSlice_apply ![0, 0, 0, 0] _ slices_S12x2048x1024x3_S1x2048x1024x3_0_0_0_0 (ix4 u0 b d l) (ix4 layer0 b d l) (fun a => match a with
    | ⟨0, _⟩ => by show 0 = 0 + 0; omega
    | ⟨1, _⟩ => by show b.val = 0 + b.val; omega
    | ⟨2, _⟩ => by show d.val = 0 + d.val; omega
    | ⟨3, _⟩ => by show l.val = 0 + l.val; omega)

/-- The filter rows as the launch finds them: the filter flattened to [1024, 3], transposed, a unit axis put back. -/
theorem filters_term (c : Dev nD) : (V m c main_v5 : S3x1x1024.Idx → EReal)
    = broadcastInDim S3x1x1024 ![0, 2] bcast_S3x1024_S3x1x1024_0_2
        (transpose S3x1024 [1, 0]
          (shapeCast S1024x3 (m ((c : Thread nD τ).loc main_arg5)) shapeCasts_S1024x1x3_S1024x3)
          transposes_S1024x3_S3x1024_1_0) := by
  dsimp only [Gen.V, Gen.hostOps0]; after_results; rfl

/-- Filter row `l` at (0, d) is the filter at (d, 0, l). -/
theorem filters_apply (c : Dev nD) (l : Fin 3) (d : Fin 1024) :
    (V m c main_v5 : S3x1x1024.Idx → EReal) (ix3 l u0 d) = m ((c : Thread nD τ).loc main_arg5) (ix3 d u0 l) := by
  have hl : l.val < 3 := l.isLt
  have hd : d.val < 1024 := d.isLt
  rw [filters_term]
  refine (broadcastInDim_apply _ bcast_S3x1024_S3x1x1024_0_2 _ (ix3 l u0 d) (ix2 l d) (fun a => match a with
    | ⟨0, _⟩ => by show l.val = if (3 : Nat) = 1 then 0 else l.val; rw [if_neg (by decide)]
    | ⟨1, _⟩ => by show d.val = if (1024 : Nat) = 1 then 0 else d.val; rw [if_neg (by decide)])).trans ?_
  refine (transpose_apply [1, 0] _ transposes_S1024x3_S3x1024_1_0 (ix2 l d) (ix2 d l) (fun a => match a with
    | ⟨0, _⟩ => rfl
    | ⟨1, _⟩ => rfl)).trans ?_
  exact shapeCast_apply _ shapeCasts_S1024x1x3_S1024x3 (ix2 d l) (ix3 d u0 l)
    (by rw [Shape.rowMajor_val_three, Shape.rowMajor_val_two]; show (d.val * 1 + 0) * 3 + l.val = d.val * 3 + l.val; omega)

end Cert.HostLayout

end
-- ==== Proof.BlockRows.lean ====
/-
  From blocks of 256 rows to the whole result array.

  Grid point `t` (of 8) stages rows 256·t … 256·t + 255 of the input and of the three tap planes, the middle third of the
  input projection, the filter rows and the output projection, and writes back rows 256·t … 256·t + 255 of the result.
  So what it writes back is block `t` of `mix` of the arguments (`flushed_eq`), the eight blocks cover every row
  (row r lies in block r / 256), and the array the run leaves is `mix` of the arguments (`result_eq`).
-/
import proofs.«145169_j68470368633593_1_alg».proof.Proof.Gen.KernelIdeal.Value
import proofs.«145169_j68470368633593_1_alg».proof.Proof.MixSpec
import proofs.«145169_j68470368633593_1_alg».proof.Proof.BodyMix
import proofs.«145169_j68470368633593_1_alg».proof.Proof.HostLayout

set_option maxRecDepth 16384

noncomputable section

namespace Cert.BlockRows

open Cert.KernelIdeal Cert.KernelIdeal.Gen Idealize.ShloMosaic Idealize.ShloMosaic.TcCoe Idealize.SL.Sem
open Idealize.ShloMosaic.Pipeline (Dat)
open Idealize.ShloMosaic.ValueIdx Cert.Mix

/-! ## One block's entry, over variables -/

/-- At row `p` and column `q` of a block, the body's result is `mix` at array row `b`, given that the staged
    blocks hold the matching rows of the arrays. -/
theorem block_entry
    (x0 : Vec Ideal S256x1x1024 .f32) (x1 : Vec Ideal S1024x1024 .f32) (x2 : Vec Ideal S3x256x1024 .f32)
    (x3 : Vec Ideal S3x1x1024 .f32) (x4 : Vec Ideal S1024x1024 .f32)
    (X0 : S2048x1x1024.Idx → EReal) (X1 : S12x2048x1024x3.Idx → EReal) (X3 : S3072x1024.Idx → EReal)
    (X4 : S1024x1024.Idx → EReal) (X5 : S1024x1x3.Idx → EReal)
    (b : Fin 2048) (p : Fin 256) (q : Fin 1024)
    (h0 : ∀ k : Fin 1024, x0 (ix3 p u0 k) = X0 (ix3 b u0 k))
    (h1 : ∀ d k : Fin 1024, x1 (ix2 d k) = X3 (ix2 (midRow d) k))
    (h2 : ∀ (l : Fin 3) (d : Fin 1024), x2 (ix3 l p d) = X1 (ix4 layer0 b d l))
    (h3 : ∀ (l : Fin 3) (d : Fin 1024), x3 (ix3 l u0 d) = X5 (ix3 d u0 l))
    (h4 : ∀ e d : Fin 1024, x4 (ix2 e d) = X4 (ix2 e d)) :
    out0_5 x0 x1 x2 x3 x4 (ix3 p u0 q) = mix X0 X1 X3 X4 X5 (ix3 b u0 q) := by
  unfold out0_5
  rw [Cert.KernelIdeal.Value.canon5_eq]
  have hy : Cert.KernelIdeal.Value.ix5_0 (ix3 p u0 q) = ix2 p q := funext fun a => Fin.ext (by
    match a with
    | ⟨0, _⟩ => rfl
    | ⟨1, _⟩ => rfl)
  show k0_pay2 (F := Ideal) (View.ld x0 r0_0) (View.ld x1 r0_1) (View.ld x2 r0_2) (View.ld x3 r0_3) (View.ld x2 r0_4) (View.ld x3 r0_5) (View.ld x2 r0_6) (View.ld x3 r0_7) (View.ld x4 r0_1) (Cert.KernelIdeal.Value.ix5_0 (ix3 p u0 q)) = _
  rw [hy, Cert.BodyMix.body_eq_blockMix]
  refine blockMix_eq_mix _ _ _ _ _ _ _ _ _ X0 X1 X3 X4 X5 b p q ?_ ?_ ?_ ?_ ?_ ?_ ?_ ?_ ?_
  · intro k
    refine (congrArg x0 (funext fun a => Fin.ext (by
      match a with
      | ⟨0, _⟩ => show 0 + 1 * p.val = p.val; omega
      | ⟨1, _⟩ => rfl
      | ⟨2, _⟩ => show 0 + 1 * k.val = k.val; omega)) : View.ld x0 r0_0 (ix3 p u0 k) = x0 (ix3 p u0 k)).trans (h0 k)
  · intro d k
    refine (congrArg x1 (funext fun a => Fin.ext (by
      match a with
      | ⟨0, _⟩ => show 0 + 1 * d.val = d.val; omega
      | ⟨1, _⟩ => show 0 + 1 * k.val = k.val; omega)) : View.ld x1 r0_1 (ix2 d k) = x1 (ix2 d k)).trans (h1 d k)
  · intro d
    refine (congrArg x2 (funext fun a => Fin.ext (by
      match a with
      | ⟨0, _⟩ => rfl
      | ⟨1, _⟩ => show 0 + 1 * p.val = p.val; omega
      | ⟨2, _⟩ => show 0 + 1 * d.val = d.val; omega)) : View.ld x2 r0_2 (ix3 u0 p d) = x2 (ix3 tap0 p d)).trans (h2 tap0 d)
  · intro d
    refine (congrArg x3 (funext fun a => Fin.ext (by
      match a with
      | ⟨0, _⟩ => rfl
      | ⟨1, _⟩ => rfl
      | ⟨2, _⟩ => show 0 + 1 * d.val = d.val; omega)) : View.ld x3 r0_3 (ix3 u0 u0 d) = x3 (ix3 tap0 u0 d)).trans (h3 tap0 d)
  · intro d
    refine (congrArg x2 (funext fun a => Fin.ext (by
      match a with
      | ⟨0, _⟩ => rfl
      | ⟨1, _⟩ => show 0 + 1 * p.val = p.val; omega
      | ⟨2, _⟩ => show 0 + 1 * d.val = d.val; omega)) : View.ld x2 r0_4 (ix3 u0 p d) = x2 (ix3 tap1 p d)).trans (h2 tap1 d)
  · intro d
    refine (congrArg x3 (funext fun a => Fin.ext (by
      match a with
      | ⟨0, _⟩ => rfl
      | ⟨1, _⟩ => rfl
      | ⟨2, _⟩ => show 0 + 1 * d.val = d.val; omega)) : View.ld x3 r0_5 (ix3 u0 u0 d) = x3 (ix3 tap1 u0 d)).trans (h3 tap1 d)
  · intro d
    refine (congrArg x2 (funext fun a => Fin.ext (by
      match a with
      | ⟨0, _⟩ => rfl
      | ⟨1, _⟩ => show 0 + 1 * p.val = p.val; omega
      | ⟨2, _⟩ => show 0 + 1 * d.val = d.val; omega)) : View.ld x2 r0_6 (ix3 u0 p d) = x2 (ix3 tap2 p d)).trans (h2 tap2 d)
  · intro d
    refine (congrArg x3 (funext fun a => Fin.ext (by
      match a with
      | ⟨0, _⟩ => rfl
      | ⟨1, _⟩ => rfl
      | ⟨2, _⟩ => show 0 + 1 * d.val = d.val; omega)) : View.ld x3 r0_7 (ix3 u0 u0 d) = x3 (ix3 tap2 u0 d)).trans (h3 tap2 d)
  · intro d
    refine (congrArg x4 (funext fun a => Fin.ext (by
      match a with
      | ⟨0, _⟩ => show 0 + 1 * q.val = q.val; omega
      | ⟨1, _⟩ => show 0 + 1 * d.val = d.val; omega)) : View.ld x4 r0_1 (ix2 q d) = x4 (ix2 q d)).trans (h4 q d)

/-! ## The windows' blocks -/

variable (m : (ℓ : Loc nD τ sig) → Buf (Elt Ideal) ℓ) (ρ : Dev nD → PrngReg)

/-- The result array as a function of the arguments as launched. -/
abbrev outArr (c : Dev nD) : S2048x1x1024.Idx → EReal :=
  mix (m ((c : Thread nD τ).loc main_arg0)) (m ((c : Thread nD τ).loc main_arg1)) (m ((c : Thread nD τ).loc main_arg3))
    (m ((c : Thread nD τ).loc main_arg4)) (m ((c : Thread nD τ).loc main_arg5))

/-- The index maps over the eight grid points: the row windows (input, tap planes, result) are at block `t` of their
    row axis; the input projection is at its block 1; the rest are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 1 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- At point `t`, row `p` and column `q` of the staged blocks give `mix` at array row 256·t + p. -/
theorem block_at (c : Dev nD) (t : Fin cfg0.N) (p : Fin 256) (q : Fin 1024) (hb : t.val * 256 + p.val < 2048) :
    out0_5 (iblk m c 0 t) (iblk m c 1 t) (iblk m c 2 t) (iblk m c 3 t) (iblk m c 4 t) (ix3 p u0 q) = outArr m c (ix3 (⟨t.val * 256 + p.val, hb⟩ : Fin 2048) u0 q) := by
  obtain ⟨a00, a01, a02, a10, a11, a20, a21, a22, a30, a31, a32, a40, a41, a50, a51, a52⟩ := idx_facts t
  refine block_entry (iblk m c 0 t) (iblk m c 1 t) (iblk m c 2 t) (iblk m c 3 t) (iblk m c 4 t)
    (m ((c : Thread nD τ).loc main_arg0)) (m ((c : Thread nD τ).loc main_arg1)) (m ((c : Thread nD τ).loc main_arg3)) (m ((c : Thread nD τ).loc main_arg4)) (m ((c : Thread nD τ).loc main_arg5))
    ⟨t.val * 256 + p.val, hb⟩ p q ?_ ?_ ?_ ?_ ?_
  · intro k
    show V m c main_arg0 (((cfg0.win 0).blk t).view.emb (ix3 p u0 k)) = _
    rw [V_main_arg0]
    refine congrArg (m ((c : Thread nD τ).loc main_arg0)) (funext fun a => Fin.ext ?_)
    match a with
    | ⟨0, _⟩ => show win0_0.index t (0 : Fin 3) * 256 + 1 * p.val = t.val * 256 + p.val; omega
    | ⟨1, _⟩ => show win0_0.index t (1 : Fin 3) * 1 + 1 * 0 = 0; omega
    | ⟨2, _⟩ => show win0_0.index t (2 : Fin 3) * 1024 + 1 * k.val = k.val; omega
  · intro d k
    show V m c main_arg3 (((cfg0.win 1).blk t).view.emb (ix2 d k)) = _
    rw [V_main_arg3]
    refine congrArg (m ((c : Thread nD τ).loc main_arg3)) (funext fun a => Fin.ext ?_)
    match a with
    | ⟨0, _⟩ => show win0_1.index t (0 : Fin 2) * 1024 + 1 * d.val = 1024 + d.val; omega
    | ⟨1, _⟩ => show win0_1.index t (1 : Fin 2) * 1024 + 1 * k.val = k.val; omega
  · intro l d
    have e : ((cfg0.win 2).blk t).view.emb (ix3 l p d) = ix3 l (⟨t.val * 256 + p.val, hb⟩ : Fin 2048) d := funext fun a => Fin.ext (by
      match a with
      | ⟨0, _⟩ => show win0_2.index t (0 : Fin 3) * 3 + 1 * l.val = l.val; omega
      | ⟨1, _⟩ => show win0_2.index t (1 : Fin 3) * 256 + 1 * p.val = t.val * 256 + p.val; omega
      | ⟨2, _⟩ => show win0_2.index t (2 : Fin 3) * 1024 + 1 * d.val = d.val; omega)
    show (V m c main_v2 : S3x2048x1024.Idx → EReal) (((cfg0.win 2).blk t).view.emb (ix3 l p d)) = _
    rw [e]
    exact Cert.HostLayout.planes_apply m c l _ d
  · intro l d
    have e : ((cfg0.win 3).blk t).view.emb (ix3 l u0 d) = ix3 l u0 d := funext fun a => Fin.ext (by
      match a with
      | ⟨0, _⟩ => show win0_3.index t (0 : Fin 3) * 3 + 1 * l.val = l.val; omega
      | ⟨1, _⟩ => show win0_3.index t (1 : Fin 3) * 1 + 1 * 0 = 0; omega
      | ⟨2, _⟩ => show win0_3.index t (2 : Fin 3) * 1024 + 1 * d.val = d.val; omega)
    show (V m c main_v5 : S3x1x1024.Idx → EReal) (((cfg0.win 3).blk t).view.emb (ix3 l u0 d)) = _
    rw [e]
    exact Cert.HostLayout.filters_apply m c l d
  · intro e d
    show V m c main_arg4 (((cfg0.win 4).blk t).view.emb (ix2 e d)) = _
    rw [V_main_arg4]
    refine congrArg (m ((c : Thread nD τ).loc main_arg4)) (funext fun a => Fin.ext ?_)
    match a with
    | ⟨0, _⟩ => show win0_4.index t (0 : Fin 2) * 1024 + 1 * e.val = e.val; omega
    | ⟨1, _⟩ => show win0_4.index t (1 : Fin 2) * 1024 + 1 * d.val = d.val; omega

/-- What point `t` writes back is block `t` of `mix` of the arguments. -/
theorem flushed_eq (c : Dev nD) (t : Fin cfg0.N) :
    (dats m 0 c).flushed 5 t = ((cfg0.win 5).blk t).view.read (Elt Ideal) (outArr m c) := by
  rw [Cert.KernelIdeal.Value.flushed5]
  obtain ⟨_, _, _, _, _, _, _, _, _, _, _, _, _, a50, a51, a52⟩ := idx_facts t
  have ht : t.val < 8 := t.isLt
  funext y
  show out0_5 (iblk m c 0 t) (iblk m c 1 t) (iblk m c 2 t) (iblk m c 3 t) (iblk m c 4 t) y = outArr m c (((cfg0.win 5).blk t).view.emb y)
  have hy0 : (y 0).val < 256 := (y 0).isLt
  have hy1 : (y 1).val < 1 := (y 1).isLt
  have hy2 : (y 2).val < 1024 := (y 2).isLt
  have hyy : (y : S256x1x1024.Idx) = ix3 (⟨(y 0).val, hy0⟩ : Fin 256) u0 (⟨(y 2).val, hy2⟩ : Fin 1024) := funext fun a => Fin.ext (by
    match a with
    | ⟨0, _⟩ => rfl
    | ⟨1, _⟩ => show (y 1).val = 0; omega
    | ⟨2, _⟩ => rfl)
  have hb : t.val * 256 + (y 0).val < 2048 := by omega
  have he : ((cfg0.win 5).blk t).view.emb y = ix3 (⟨t.val * 256 + (y 0).val, hb⟩ : Fin 2048) u0 (⟨(y 2).val, hy2⟩ : Fin 1024) := funext fun a => Fin.ext (by
    match a with
    | ⟨0, _⟩ => show win0_5.index t (0 : Fin 3) * 256 + 1 * (y 0).val = t.val * 256 + (y 0).val; omega
    | ⟨1, _⟩ => show win0_5.index t (1 : Fin 3) * 1 + 1 * (y 1).val = 0; omega
    | ⟨2, _⟩ => show win0_5.index t (2 : Fin 3) * 1024 + 1 * (y 2).val = (y 2).val; omega)
  rw [he]
  exact (congrArg (out0_5 (iblk m c 0 t) (iblk m c 1 t) (iblk m c 2 t) (iblk m c 3 t) (iblk m c 4 t)) hyy).trans (block_at m c t ⟨(y 0).val, hy0⟩ ⟨(y 2).val, hy2⟩ hb)

/-! ## The blocks cover the array -/

/-- An index is in point `t`'s block iff each coordinate is in the block's range on its axis. -/
theorem mem_blk (t : Fin cfg0.N) (i : S2048x1x1024.Idx) :
    i ∈ ((cfg0.win 5).blk t).view.set ↔ ∀ a : Fin 3, win0_5.index t a * S256x1x1024.size a ≤ (i a).val
      ∧ (i a).val < win0_5.index t a * S256x1x1024.size a + S256x1x1024.size a := by
  show i ∈ ((View.whole main_v6).slice (win0_5.rect t)).set ↔ _
  rw [View.set_slice_whole, Rect.mem_set_unit]
  exact Iff.rfl

/-- Row `r` of the result lies in the block of point `r / 256`. -/
theorem cover (i : S2048x1x1024.Idx) :
    ∃ t : Fin cfg0.N, (cfg0.win 5).flush t = true ∧ i ∈ ((cfg0.win 5).blk t).view.set := by
  have hi0 : (i 0).val < 2048 := (i 0).isLt
  have hi1 : (i 1).val < 1 := (i 1).isLt
  have hi2 : (i 2).val < 1024 := (i 2).isLt
  have hlt : (i 0).val / 256 < 8 := by omega
  obtain ⟨_, _, _, _, _, _, _, _, _, _, _, _, _, a50, a51, a52⟩ := idx_facts ⟨(i 0).val / 256, hlt⟩
  have a50' : win0_5.index ⟨(i 0).val / 256, hlt⟩ (0 : Fin 3) = (i 0).val / 256 := a50
  refine ⟨⟨(i 0).val / 256, hlt⟩, flush0_5 _, ?_⟩
  rw [mem_blk]
  intro a
  match a with
  | ⟨0, _⟩ => show win0_5.index ⟨(i 0).val / 256, hlt⟩ (0 : Fin 3) * 256 ≤ (i 0).val ∧ (i 0).val < win0_5.index ⟨(i 0).val / 256, hlt⟩ (0 : Fin 3) * 256 + 256; omega
  | ⟨1, _⟩ => show win0_5.index ⟨(i 0).val / 256, hlt⟩ (1 : Fin 3) * 1 ≤ (i 1).val ∧ (i 1).val < win0_5.index ⟨(i 0).val / 256, hlt⟩ (1 : Fin 3) * 1 + 1; omega
  | ⟨2, _⟩ => show win0_5.index ⟨(i 0).val / 256, hlt⟩ (2 : Fin 3) * 1024 ≤ (i 2).val ∧ (i 2).val < win0_5.index ⟨(i 0).val / 256, hlt⟩ (2 : Fin 3) * 1024 + 1024; omega

/-! ## The array after the run -/

/-- The result array the run leaves is `mix` of the arguments. -/
theorem result_eq (c : Dev nD) : (dats m 0 c).arrAt 5 cfg0.N = outArr m c :=
  (dats m 0 c).arrAt_eq_of_cover 5 (outArr m c) (fun t _ => flushed_eq m c t) cover

/-- The kernel's run with its result named: `mix` of the arguments, which end unchanged. -/
theorem run : θ_run defs (onTc (τ := τ) (main (F := Ideal))) ⟨m, fun _ => 0, ρ⟩ fun r => ∀ c : Dev nD,
      r.2.mem ((c : Thread nD τ).loc main_v6) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_eq m c), (h c).2⟩)
    (Cert.KernelIdeal.Value.run_blocks m ρ)

end Cert.BlockRows

end
-- ==== Proof.lean ====
/-
  A decode step of a gated short convolution, as a kernel over blocks of 256 batch rows and as plain array
  operations: both end with the same result on the extended reals.

  For batch row `b` and output column `e` the result is

      out[b, 0, e] = Σ_d ( gate[b, d] · taps[b, d] ) · wout[e, d],
      gate[b, d]   = Σ_k x[b, 0, k] · win[1024 + d, k]         (the middle third of the input projection),
      taps[b, d]   = Σ_l cache[0, b, d, l] · cw[d, 0, l]        (three taps of layer 0's cached state),

  the function `Cert.Mix.mix` of the five arrays (Proof/MixSpec.lean). The reference computes it operation by
  operation (Proof/RefMix.lean): a contraction of `x` with the whole [3072, 1024] projection of which rows
  1024 … 2047 are kept, the tap sum from the initial value 0, their product, and the contraction with the output
  projection. The kernel first re-lays the cache's layer 0 with the taps in front and the filter as three rows
  (Proof/HostLayout.lean), then at each of its 8 grid points multiplies a block of 256 rows by the transposed
  projection block, adds the three tap products in the order (0 + 1) + 2, and multiplies by the transposed output
  projection (Proof/BodyMix.lean); the 8 blocks tile the 2048 rows (Proof/BlockRows.lean). The two sides differ
  only in the order of the same sums and in a leading 0, so the equality uses commutative-monoid laws only and
  never asks whether an entry is finite. Narrowing to the 16-bit format is the identity on the extended reals, and
  no rewrite was made when the kernel was idealized, so there is nothing to preserve.
-/
import proofs.«145169_j68470368633593_1_alg».proof.Defs
import proofs.«145169_j68470368633593_1_alg».proof.Proof.Gen.Kernel
import proofs.«145169_j68470368633593_1_alg».proof.Proof.Gen.Kernel.Skeleton
import proofs.«145169_j68470368633593_1_alg».proof.Proof.Gen.Kernel.Launch
import proofs.«145169_j68470368633593_1_alg».proof.Proof.Gen.Kernel.Points
import proofs.«145169_j68470368633593_1_alg».proof.Proof.Gen.Kernel.Frame
import proofs.«145169_j68470368633593_1_alg».proof.Proof.Gen.KernelIdeal
import proofs.«145169_j68470368633593_1_alg».proof.Proof.Gen.KernelIdeal.Skeleton
import proofs.«145169_j68470368633593_1_alg».proof.Proof.Gen.KernelIdeal.Launch
import proofs.«145169_j68470368633593_1_alg».proof.Proof.Gen.KernelIdeal.Points
import proofs.«145169_j68470368633593_1_alg».proof.Proof.Gen.KernelIdeal.Frame
import proofs.«145169_j68470368633593_1_alg».proof.Proof.Gen.ReferenceIdeal
import proofs.«145169_j68470368633593_1_alg».proof.Proof.Gen.Pre_finite_inputs
import proofs.«145169_j68470368633593_1_alg».proof.Proof.Gen.KernelIdeal.Value
import proofs.«145169_j68470368633593_1_alg».proof.Proof.Gen.ReferenceIdeal.Run
import proofs.«145169_j68470368633593_1_alg».proof.Proof.Gen.ReferenceIdeal.Read
import proofs.«145169_j68470368633593_1_alg».proof.Proof.MixSpec
import proofs.«145169_j68470368633593_1_alg».proof.Proof.RefMix
import proofs.«145169_j68470368633593_1_alg».proof.Proof.BodyMix
import proofs.«145169_j68470368633593_1_alg».proof.Proof.HostLayout
import proofs.«145169_j68470368633593_1_alg».proof.Proof.BlockRows
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories that agree on the arguments both programs end with the result at `mix` of the arguments:
    the kernel by its blocks, the reference operation by operation. -/
theorem algebraic : Cert.algebraic_KernelIdeal_ReferenceIdeal := by
  intro m ρ m' ρ' _ hagree
  refine ⟨_, Cert.BlockRows.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.2.1, (hagree c).2.2.2.2.1, (hagree c).2.2.2.2.2]
  exact (Cert.ReferenceIdeal.Read.val_main_v16_eq _ _ _ _ _).trans (Cert.RefMix.ref_eq_mix _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
